-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x640000 32 := broadcastInDim S2x640000 ![] bcast_S_S2x640000 main_c_8
  let main_v25 : IVec S2x640000 1 := cmpi .sge main_arg1 main_v24
  let main_c_9 : IVec S_ 32 := constantI S_ 32 100000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S100000x128 .f32) (main_arg1 : IVec S2x640000 32) (main_arg2 : FVec F S256x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 61
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S1, .i32⟩
  | .hbm, ⟨42, _⟩ => ⟨S_, .i32⟩
  | .hbm, ⟨43, _⟩ => ⟨S640000x1, .i32⟩
  | .hbm, ⟨44, _⟩ => ⟨S640000x1, .i1⟩
  | .hbm, ⟨45, _⟩ => ⟨S1x1, .i32⟩
  | .hbm, ⟨46, _⟩ => ⟨S640000x1, .i32⟩
  | .hbm, ⟨47, _⟩ => ⟨S640000x1, .i1⟩
  | .hbm, ⟨48, _⟩ => ⟨S640000x1, .i1⟩
  | .hbm, ⟨49, _⟩ => ⟨S_, .i1⟩
  | .hbm, ⟨50, _⟩ => ⟨S640000, .i1⟩
  | .hbm, ⟨51, _⟩ => ⟨S640000x128, .f32⟩
  | .hbm, ⟨52, _⟩ => ⟨S640000x128, .i1⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S128x128, .f32⟩
  | .hbm, ⟨57, _⟩ => ⟨S128x128, .f32⟩
  | .hbm, ⟨58, _⟩ => ⟨S1x128, .f32⟩
  | .hbm, ⟨59, _⟩ => ⟨S1x1, .f32⟩
  | .hbm, ⟨60, _⟩ => ⟨S640000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x1, .f32⟩
  | .local _ .vmem, ⟨8, _⟩ => ⟨S1x1, .f32⟩
  | .local _ .vmem, ⟨9, _⟩ => ⟨S5000x1, .f32⟩
  | .local _ .vmem, ⟨10, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S256x128_S128x128_0_0 : S256x128.Slices ![0, 0] S128x128
  slices_S256x128_S128x128_128_0 : S256x128.Slices ![128, 0] S128x128
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S640000x1_S640000x128_1_0_n_n_0_1_1128_wf : GatherDims.WF S100000x128 S640000x1 S640000x128 [1] [0] [] [0] [] 1 ![1, 128]
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S640000x1.size a
  hwx0_7 : ∀ i : grid0.Coords, EltTy.bits .f32 = 32 ∨ (Rect.block (s := S640000x1) S5000x1.size (cc0_transform_7 i) (hinb0_7 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x256, .f32⟩
  | .hbm, ⟨29, _⟩ => ⟨S640000x128, .f32⟩
  | .hbm, ⟨30, _⟩ => ⟨S1x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S640000x128, .f32⟩
  | .hbm, ⟨35, _⟩ => ⟨S640000x128, .f32⟩
  | .hbm, ⟨36, _⟩ => ⟨S640000x1, .f32⟩
  | .hbm, ⟨37, _⟩ => ⟨S1x1, .f32⟩
  | .hbm, ⟨38, _⟩ => ⟨S640000x1, .f32⟩
  | .hbm, ⟨39, _⟩ => ⟨S640000x1, .f32⟩
  | .hbm, ⟨40, _⟩ => ⟨S640000x1, .f32⟩
  | .hbm, ⟨41, _⟩ => ⟨S640000x1, .f32⟩
  | .hbm, ⟨42, _⟩ => ⟨S_, .f32⟩
  | .hbm, ⟨43, _⟩ => ⟨S640000x1, .f32⟩
  | .hbm, ⟨44, _⟩ => ⟨S640000x1, .f32⟩
  | .hbm, ⟨45, _⟩ => ⟨S_, .f32⟩
  | .hbm, ⟨46, _⟩ => ⟨S640000x1, .f32⟩
  | .hbm, ⟨47, _⟩ => ⟨S640000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  gather_S100000x128_S640000x1_S640000x128_1_0_n_n_0_1_1128_wf : GatherDims.WF S100000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x1_S640000x1_1_0_0_1_n_n_wf : DotDims.WF S640000x128 S128x1 S640000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.IndexRange.lean ====
/-
  What the precondition says of the edge list.

  The precondition is a conjunction, computed on the arrays, whose last conjunct is "every entry `e` of the edge list
  satisfies `-100000 ≤ e` and `e < 100000`", written as a reduction by `and` over the whole 2 × 640000 array of the two
  word compares. A reduction by `and` that comes out 1 met only 1s, so both compares are 1 at every entry. The two rows
  of the edge list are re-indexings of it, so the same holds at every entry of either row.
-/
import proofs.«421132_j72078141162164_1_alg».proof.Defs
import proofs.«421132_j72078141162164_1_alg».proof.Proof.Gen.Pre_finite_inputs
import Idealize.ShloMosaic.Lib.ReduceAll
import Idealize.ShloMosaic.Lib.ValueIdx

noncomputable section

namespace Cert.EdgeScore

open Idealize.ShloMosaic

instance subsingleton_scalar_idx : Subsingleton Cert.Pre_finite_inputs.S_.Idx := ⟨fun a b => funext fun d => d.elim0⟩

/-- Where the precondition holds, every entry of the edge list is in `[-100000, 100000)` (as two word compares). -/
theorem range_of_pre {F : FTy → Type} [FloatOps F] (a0 : FVec F Cert.Pre_finite_inputs.S100000x128 .f32)
    (a1 : IVec Cert.Pre_finite_inputs.S2x640000 32) (a2 : FVec F Cert.Pre_finite_inputs.S256x128 .f32)
    (a3 : FVec F Cert.Pre_finite_inputs.S128 .f32) (a4 : FVec F Cert.Pre_finite_inputs.S128x1 .f32)
    (a5 : FVec F Cert.Pre_finite_inputs.S1 .f32)
    (h : Cert.Pre_finite_inputs.fn (F := F) a0 a1 a2 a3 a4 a5 = fun _ => 1#1) (i : Cert.Pre_finite_inputs.S2x640000.Idx) :
    IntOp.cmpi .sge (a1 i) 4294867296#32 = 1#1 ∧ IntOp.cmpi .slt (a1 i) 100000#32 = 1#1 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  exact IntOp.andi_eq_one.1 h2

end Cert.EdgeScore

end
-- ==== Proof.LibTypedRead.lean ====
/-
  Host operations on typed references, read back at the value's type.

  A module-local function's operations are stated over typed references (`TRef sig T`: a buffer with a proof that its type
  is `T`), and read and write the buffer through the transport along that proof. Reading a buffer back through the same
  transport (`rd x W`: the contents `W` holds at `x`'s buffer, at the type `T`) undoes it: after a typed operation the
  result reference reads as the operation's function of its operands' typed reads, with no transport left, and every
  other reference reads as before. These are the operations' `result` facts restated for typed reads, for any function
  `f` — so that evaluating a list of typed operations never has to compare a transported term with an untransported one.
-/
import Idealize.ShloMosaic.Lib.StableHlo.Run

noncomputable section

namespace Idealize.ShloMosaic.StableHlo.TRef

open Idealize.ShloMosaic Idealize.ShloMosaic.StableHlo

variable {τ : Topo} {sig : RefSig} {Val : EltTy → Type}
variable {T Tx Ta Tb Tc Ty : BufTy}

/-- The contents `W` holds at a typed reference's buffer, at the value's type. -/
def rd (x : TRef sig T) (W : Valuation τ sig Val) : T.Contents Val := x.ofBuf (W (Proc.devRef .tc x.ref))

/-- Writing at the value's type and reading back is the identity. -/
theorem ofBuf_toBuf (x : TRef sig T) (z : T.Contents Val) : x.ofBuf (Val := Val) (x.toBuf z) = z := by
  obtain ⟨r, h, h2, h3⟩ := x
  subst h
  rfl

/-- A constant: its reference reads as the constant … -/
theorem rd_nullary (y : TRef sig Ty) (v : Ty.Contents Val) (W : Valuation τ sig Val) :
    rd y ((no_index (TRef.nullary (τ := τ) y v)).result W) = v :=
  (congrArg y.ofBuf (nullary_result y.ref (y.toBuf v) y.dev W)).trans (ofBuf_toBuf y v)
/-- … and every other reference as before. -/
theorem rd_nullary_ne (y : TRef sig Ty) (v : Ty.Contents Val) (z : TRef sig T) (W : Valuation τ sig Val) (h : z.ref ≠ y.ref) :
    rd z ((no_index (TRef.nullary (τ := τ) y v)).result W) = rd z W :=
  congrArg z.ofBuf (nullary_result_ne y.ref (y.toBuf v) y.dev W h)

/-- A one-operand operation: its result reads as the function of the operand's read. -/
theorem rd_unary (x : TRef sig Tx) (y : TRef sig Ty) (f : Tx.Contents Val → Ty.Contents Val) (W : Valuation τ sig Val) :
    rd y ((no_index (TRef.unary (τ := τ) x y f)).result W) = f (rd x W) :=
  (congrArg y.ofBuf (unary_result x.ref y.ref (fun u => y.toBuf (f (x.ofBuf u))) x.dev y.dev W)).trans (ofBuf_toBuf y _)
theorem rd_unary_ne (x : TRef sig Tx) (y : TRef sig Ty) (f : Tx.Contents Val → Ty.Contents Val) (z : TRef sig T)
    (W : Valuation τ sig Val) (h : z.ref ≠ y.ref) :
    rd z ((no_index (TRef.unary (τ := τ) x y f)).result W) = rd z W :=
  congrArg z.ofBuf (unary_result_ne x.ref y.ref (fun u => y.toBuf (f (x.ofBuf u))) x.dev y.dev W h)

/-- A two-operand operation. -/
theorem rd_binary (a : TRef sig Ta) (b : TRef sig Tb) (y : TRef sig Ty) (f : Ta.Contents Val → Tb.Contents Val → Ty.Contents Val)
    (W : Valuation τ sig Val) :
    rd y ((no_index (TRef.binary (τ := τ) a b y f)).result W) = f (rd a W) (rd b W) :=
  (congrArg y.ofBuf (binary_result a.ref b.ref y.ref (fun u v => y.toBuf (f (a.ofBuf u) (b.ofBuf v))) a.dev b.dev y.dev W)).trans
    (ofBuf_toBuf y _)
theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((no_index (TRef.binary (τ := τ) a b y f)).result W) = rd z W :=
  congrArg z.ofBuf (binary_result_ne a.ref b.ref y.ref (fun u v => y.toBuf (f (a.ofBuf u) (b.ofBuf v))) a.dev b.dev y.dev W h)

/-- A three-operand operation. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((no_index (TRef.ternary (τ := τ) c a b y f)).result W) = f (rd c W) (rd a W) (rd b W) :=
  (congrArg y.ofBuf (ternary_result c.ref a.ref b.ref y.ref (fun w u v => y.toBuf (f (c.ofBuf w) (a.ofBuf u) (b.ofBuf v)))
    c.dev a.dev b.dev y.dev W)).trans (ofBuf_toBuf y _)
theorem rd_ternary_ne (c : TRef sig Tc) (a : TRef sig Ta) (b : TRef sig Tb) (y : TRef sig Ty)
    (f : Tc.Contents Val → Ta.Contents Val → Tb.Contents Val → Ty.Contents Val) (z : TRef sig T) (W : Valuation τ sig Val)
    (h : z.ref ≠ y.ref) :
    rd z ((no_index (TRef.ternary (τ := τ) c a b y f)).result W) = rd z W :=
  congrArg z.ofBuf (ternary_result_ne a.ref b.ref c.ref y.ref (fun w u v => y.toBuf (f (c.ofBuf w) (a.ofBuf u) (b.ofBuf v)))
    c.dev a.dev b.dev y.dev W h)

end Idealize.ShloMosaic.StableHlo.TRef

end
-- ==== Proof.WrapIndex.lean ====
/-
  Node indices as 32-bit words. A row index `e` with `-100000 ≤ e < 100000` (read signed) is first wrapped the way
  array indexing wraps a negative index, `w = if e < 0 then e + 100000 else e`, and the wrapped index then lies in
  `[0, 99999]`: for `e < 0` the sum `e + 100000` is in `[0, 99999]` and does not leave the signed 32-bit range, and
  for `e ≥ 0` it is `e` itself. So the validity test `0 ≤ w ∧ w ≤ 99999`, computed on words, is the bit 1.

  Beside it: an `and`-reduction, started at 1, of a vector of bits that are all 1 is 1 at every result position
  (the fold only ever meets `1 &&& 1`).
-/
import Idealize.ShloMosaic.Lib.ReduceAll

namespace Cert.EdgeScore

open Idealize.ShloMosaic

/-- The signed reading of the word that spells `-100000`. -/
theorem toInt_lo : (4294867296#32 : BitVec 32).toInt = -100000 := by decide

/-- A Boolean as a one-bit word is 1 exactly when it is true. -/
theorem ofBool_one (b : Bool) : BitVec.ofBool b = 1#1 ↔ b = true := by cases b <;> decide

/-- A word compare that came out 1, as the order of the signed readings. -/
theorem sge_one {a b : BitVec 32} : IntOp.cmpi .sge a b = 1#1 ↔ b.toInt ≤ a.toInt := by
  simp only [IntOp.cmpi, BitVec.sle, ofBool_one, decide_eq_true_eq]
theorem sle_one {a b : BitVec 32} : IntOp.cmpi .sle a b = 1#1 ↔ a.toInt ≤ b.toInt := by
  simp only [IntOp.cmpi, BitVec.sle, ofBool_one, decide_eq_true_eq]
theorem slt_one {a b : BitVec 32} : IntOp.cmpi .slt a b = 1#1 ↔ a.toInt < b.toInt := by
  simp only [IntOp.cmpi, BitVec.slt, ofBool_one, decide_eq_true_eq]

/-- The wrapped index of an index in `[-100000, 100000)` passes the validity test `0 ≤ w ≤ 99999`. -/
theorem wrapped_valid (e : BitVec 32) (hlo : IntOp.cmpi .sge e 4294867296#32 = 1#1)
    (hhi : IntOp.cmpi .slt e 100000#32 = 1#1) :
    IntOp.andi
      (IntOp.cmpi .sge (Scalar.select (IntOp.cmpi .slt e 0#32) (IntOp.addi e 100000#32) e) 0#32)
      (IntOp.cmpi .sle (Scalar.select (IntOp.cmpi .slt e 0#32) (IntOp.addi e 100000#32) e) 99999#32) = 1#1 := by
  rw [sge_one, toInt_lo] at hlo
  rw [slt_one] at hhi
  have h100 : (100000#32 : BitVec 32).toInt = 100000 := by decide
  have h0 : (0#32 : BitVec 32).toInt = 0 := by decide
  have h9 : (99999#32 : BitVec 32).toInt = 99999 := by decide
  rw [h100] at hhi
  rw [IntOp.andi_eq_one, sge_one, sle_one, h0, h9]
  unfold Scalar.select
  by_cases hneg : IntOp.cmpi .slt e 0#32 = 1#1
  · rw [if_pos (show IntOp.cmpi .slt e 0#32 = 1 from hneg)]
    rw [slt_one, h0] at hneg
    have hs : (IntOp.addi e 100000#32).toInt = e.toInt + 100000 := by
      unfold IntOp.addi
      rw [BitVec.toInt_add, h100]
      exact Int.bmod_eq_of_le_mul_two (by omega) (by omega)
    rw [hs]; omega
  · rw [if_neg (show ¬ IntOp.cmpi .slt e 0#32 = 1 from hneg)]
    rw [slt_one, h0] at hneg
    omega

/-- A left fold by `and` from 1 over bits that are all 1 stays 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_ones f l _ ?_ (fun n hn => hl n (List.mem_cons_of_mem _ hn))
    rw [hi, hl a List.mem_cons_self]; decide

/-- An `and`-reduction from 1 of a vector whose every bit is 1 is 1 at every result position. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_ones x _ _ (hinit _) (fun n _ => hx n)

end Cert.EdgeScore
-- ==== Proof.KernelArrays.lean ====
/-
  The arrays the kernel's one region finds.

  Before the region the program slices the two rows of the edge list out of `edge_index`, gathers a row of the node
  table for each endpoint, cuts the first-layer weight into its first and last 128 rows, and lays the two biases out as
  a row and as a 1 × 1 array. Each of these arrays is named here as a function of the program's arguments.

  The gather is guarded: an endpoint index `e` is wrapped (`e + 100000` if `e < 0`), the wrapped index is tested for
  `0 ≤ w ≤ 99999`, and a row whose test fails is replaced by a fill value. `takeRows` is that guarded gather as written.
  Where every endpoint index lies in `[-100000, 100000)` every test succeeds (`WrapIndex.wrapped_valid`), the guard
  selects the gathered row everywhere, and `takeRows` is the plain gather at the wrapped indices
  (`takeRows_of_range`): the fill value is never read.
-/
import proofs.«421132_j72078141162164_1_alg».proof.Proof.Gen.KernelIdeal.Frame
import proofs.«421132_j72078141162164_1_alg».proof.Proof.LibTypedRead
import proofs.«421132_j72078141162164_1_alg».proof.Proof.WrapIndex
import Idealize.ShloMosaic.Lib.StableHlo.Run

noncomputable section

namespace Cert.EdgeScore.Kernel

open Cert.KernelIdeal Cert.KernelIdeal.Gen Cert.EdgeScore
open Idealize.ShloMosaic Idealize.ShloMosaic.TcCoe Idealize.SL.Sem Idealize.ShloMosaic.StableHlo

variable {F : FTy → Type} [FloatOps F]

/-! ## The host operations as functions -/

/-- Row 0 of the edge list: the first endpoint of every edge. -/
def endpoint0 (e : IVec S2x640000 32) : IVec S640000 32 :=
  shapeCast S640000 (extractStridedSlice S1x640000 ![0, 0] e slices_S2x640000_S1x640000_0_0) shapeCasts_S1x640000_S640000
/-- Row 1 of the edge list: the second endpoint of every edge. -/
def endpoint1 (e : IVec S2x640000 32) : IVec S640000 32 :=
  shapeCast S640000 (extractStridedSlice S1x640000 ![1, 0] e slices_S2x640000_S1x640000_1_0) shapeCasts_S1x640000_S640000

/-- The wrapped indices, as the one-column index array the gather takes. -/
def wrapIdx (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 100000#32))) r)

/-- The rows of the node table at the wrapped indices. -/
def gatherRows (x : FVec F S100000x128 .f32) (r : IVec S640000 32) : FVec F S640000x128 .f32 :=
  Host.gather gather_S100000x128_S640000x1_S640000x128_1_0_n_n_0_1_1128 x (wrapIdx r)

/-- The guarded gather as the program writes it: the gathered row where `0 ≤ w ≤ 99999`, a fill value elsewhere. -/
def takeRows (x : FVec F S100000x128 .f32) (r : IVec S640000 32) : FVec F S640000x128 .f32 :=
  select
    (broadcastInDim S640000x128 ![0] bcast_S640000_S640000x128_0
      (Host.reduce IntOp.andi
        (andi (cmpi .sge (wrapIdx r) (broadcastInDim S640000x1 ![] bcast_S_S640000x1 (constantI S_ 32 0#32)))
          (cmpi .sle (wrapIdx r)
            (broadcastInDim S640000x1 ![0, 1] bcast_S1x1_S640000x1_0_1
              (broadcastInDim S1x1 ![1] bcast_S1_S1x1_1 (constantI S1 32 99999#32)))))
        (constantI S_ 1 1#1) reducesTo_S640000x1_S640000_d1 h_S_))
    (gatherRows x r)
    (broadcastInDim S640000x128 ![] bcast_S_S640000x128 (constant S_ .f32 0x7FC00000#32))

/-- A choice whose mask is 1 everywhere is its first branch. -/
theorem select_of_ones {s : Shape} {α : Type} (c : IVec s 1) (a b : s.Idx → α) (hc : ∀ i, c i = 1#1) : select c a b = a := by
  funext i
  unfold select Scalar.select
  exact if_pos (hc i)

/-- A broadcast of a vector of 1s is 1 everywhere. -/
theorem broadcastInDim_ones {s t : Shape} (dims : Fin s.rank → Fin t.rank) (h : s.BroadcastsInDim t dims) (x : IVec s 1)
    (hx : ∀ q, x q = 1#1) (j : t.Idx) : broadcastInDim t dims h x j = 1#1 := by
  unfold broadcastInDim
  exact hx _

/-- With every endpoint index in `[-100000, 100000)` the guard passes everywhere: the guarded gather is the gather. -/
theorem takeRows_of_range (x : FVec F S100000x128 .f32) (r : IVec S640000 32)
    (hr : ∀ p, IntOp.cmpi .sge (r p) 4294867296#32 = 1#1 ∧ IntOp.cmpi .slt (r p) 100000#32 = 1#1) :
    takeRows x r = gatherRows x r := by
  have hmask : ∀ q : S640000.Idx,
      Host.reduce IntOp.andi
        (andi (cmpi .sge (wrapIdx r) (broadcastInDim S640000x1 ![] bcast_S_S640000x1 (constantI S_ 32 0#32)))
          (cmpi .sle (wrapIdx r)
            (broadcastInDim S640000x1 ![0, 1] bcast_S1x1_S640000x1_0_1
              (broadcastInDim S1x1 ![1] bcast_S1_S1x1_1 (constantI S1 32 99999#32)))))
        (constantI S_ 1 1#1) reducesTo_S640000x1_S640000_d1 h_S_ q = 1#1 := fun q =>
    reduce_andi_ones _ _ _ _ (fun i => wrapped_valid (r _) (hr _).1 (hr _).2) (fun _ => rfl) q
  unfold takeRows
  exact select_of_ones _ _ _ (fun j => broadcastInDim_ones _ _ _ hmask j)

/-! ## The arrays at region entry -/

/-- Reading or writing one of these buffers at its value's type changes nothing: the buffer's type IS that type. -/
theorem ofBuf_endpoint0 (v : (⟨S640000, .i32⟩ : BufTy).Contents (Elt F)) :
    (TRef.of main_v1 : TRef sig ⟨S640000, .i32⟩).ofBuf (Val := Elt F) v = v := rfl
theorem ofBuf_endpoint1 (v : (⟨S640000, .i32⟩ : BufTy).Contents (Elt F)) :
    (TRef.of main_v3 : TRef sig ⟨S640000, .i32⟩).ofBuf (Val := Elt F) v = v := rfl
theorem ofBuf_table (v : (⟨S100000x128, .f32⟩ : BufTy).Contents (Elt F)) :
    (TRef.of main_arg0 : TRef sig ⟨S100000x128, .f32⟩).ofBuf (Val := Elt F) v = v := rfl
theorem toBuf_rows0 (v : (⟨S640000x128, .f32⟩ : BufTy).Contents (Elt F)) :
    (TRef.of main_v4 : TRef sig ⟨S640000x128, .f32⟩).toBuf (Val := Elt F) v = v := rfl
theorem toBuf_rows1 (v : (⟨S640000x128, .f32⟩ : BufTy).Contents (Elt F)) :
    (TRef.of main_v5 : TRef sig ⟨S640000x128, .f32⟩).toBuf (Val := Elt F) v = v := rfl

variable (m : (ℓ : Loc nD τ sig) → Buf (Elt F) ℓ)

/-- The first staged array: the guarded gather of the node table at the first endpoints. -/
theorem V_rows0 (c : Dev nD) :
    (V m c main_v4 : S640000x128.Idx → Elt F .f32)
      = takeRows (m ((c : Thread nD τ).loc main_arg0)) (endpoint0 (m ((c : Thread nD τ).loc main_arg1))) := by
  dsimp only [V]
  simp only [hostOps0, hostOps0_1, hostOps0_2, hostOps0_3, List.flatten_cons, List.flatten_nil, List.append_nil,
    List.cons_append, List.nil_append]
  after_results_simp
  simp only [TRef.ofBuf_toBuf]
  rw [toBuf_rows0, ofBuf_endpoint0, ofBuf_table]
  unfold takeRows gatherRows wrapIdx endpoint0
  rfl

/-- The second staged array: the guarded gather at the second endpoints. -/
theorem V_rows1 (c : Dev nD) :
    (V m c main_v5 : S640000x128.Idx → Elt F .f32)
      = takeRows (m ((c : Thread nD τ).loc main_arg0)) (endpoint1 (m ((c : Thread nD τ).loc main_arg1))) := by
  dsimp only [V]
  simp only [hostOps0, hostOps0_1, hostOps0_2, hostOps0_3, List.flatten_cons, List.flatten_nil, List.append_nil,
    List.cons_append, List.nil_append]
  after_results_simp
  simp only [TRef.ofBuf_toBuf]
  rw [toBuf_rows1, ofBuf_endpoint1, ofBuf_table]
  unfold takeRows gatherRows wrapIdx endpoint1
  rfl

/-- The first 128 rows of the first-layer weight. -/
theorem V_w1a (c : Dev nD) :
    (V m c main_v6 : S128x128.Idx → Elt F .f32)
      = extractStridedSlice S128x128 ![0, 0] (m ((c : Thread nD τ).loc main_arg2)) slices_S256x128_S128x128_0_0 := by
  dsimp only [V]
  simp only [hostOps0, hostOps0_1, hostOps0_2, hostOps0_3, List.flatten_cons, List.flatten_nil, List.append_nil,
    List.cons_append, List.nil_append]
  after_results_simp

/-- The last 128 rows of the first-layer weight. -/
theorem V_w1b (c : Dev nD) :
    (V m c main_v7 : S128x128.Idx → Elt F .f32)
      = extractStridedSlice S128x128 ![128, 0] (m ((c : Thread nD τ).loc main_arg2)) slices_S256x128_S128x128_128_0 := by
  dsimp only [V]
  simp only [hostOps0, hostOps0_1, hostOps0_2, hostOps0_3, List.flatten_cons, List.flatten_nil, List.append_nil,
    List.cons_append, List.nil_append]
  after_results_simp

/-- The first-layer bias as a row. -/
theorem V_b1 (c : Dev nD) :
    (V m c main_v8 : S1x128.Idx → Elt F .f32)
      = shapeCast S1x128 (m ((c : Thread nD τ).loc main_arg3)) shapeCasts_S128_S1x128 := by
  dsimp only [V]
  simp only [hostOps0, hostOps0_1, hostOps0_2, hostOps0_3, List.flatten_cons, List.flatten_nil, List.append_nil,
    List.cons_append, List.nil_append]
  after_results_simp
  rfl

/-- The second-layer bias as a 1 × 1 array. -/
theorem V_b2 (c : Dev nD) :
    (V m c main_v9 : S1x1.Idx → Elt F .f32)
      = shapeCast S1x1 (m ((c : Thread nD τ).loc main_arg5)) shapeCasts_S1_S1x1 := by
  dsimp only [V]
  simp only [hostOps0, hostOps0_1, hostOps0_2, hostOps0_3, List.flatten_cons, List.flatten_nil, List.append_nil,
    List.cons_append, List.nil_append]
  after_results_simp
  rfl

end Cert.EdgeScore.Kernel

end
-- ==== Proof.KernelPayload.lean ====
/-
  What the kernel body computes for one block of 5000 edges, read at one edge.

  The body takes the block's two 5000 × 128 arrays of gathered rows `x0`, `x1`, the two 128 × 128 halves `x2`, `x3` of
  the first-layer weight, the bias row `x4`, the 128 × 1 second-layer weight `x5` and the 1 × 1 bias `x6`. Over the
  extended reals a change of float format is the identity and a matrix product into a zero accumulator is the plain
  sum over the contracted axis, so at edge `p` of the block the body's value is

      logistic (∑ⱼ max (∑ₖ x0 (p, k) · x2 (k, j) + ∑ₖ x1 (p, k) · x3 (k, j) + x4 (0, j)) 0 · x5 (j, 0) + x6 (0, 0)).

  The two matrix-product lemmas read a product at `(p, q)` as the sum over `k` of the left operand at `(p, k)` times the
  right operand at `(k, q)`: the contraction shape has one axis of 128, the left operand's axis 0 and the right
  operand's axis 1 are the result's.
-/
import proofs.«421132_j72078141162164_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.EdgeScore.Kernel

open Cert.KernelIdeal Cert.KernelIdeal.Gen
open Idealize.ShloMosaic Idealize.ShloMosaic.ValueIdx

/-! ## The first-layer products: [5000, 128] × [128, 128] -/

theorem first_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem first_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem first_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem first_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A first-layer product into the zero accumulator, at `(p, q)`: the sum over `k` of left `(p, k)` times right `(k, q)`. -/
theorem first_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact first_lhs_0 _ _
    | ⟨1, _⟩ => exact (first_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (first_rhs_0 _ _).trans hk
    | ⟨1, _⟩ => exact first_rhs_1 _ _)
  rw [el, er]

/-! ## The second-layer product: [5000, 128] × [128, 1] -/

theorem second_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem second_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem second_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem second_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The second-layer product into the zero accumulator, at `(p, q)`. -/
theorem second_apply (a : FVec Ideal S5000x128 .bf16) (b : FVec Ideal S128x1 .bf16) (p : Fin 5000) (q : Fin 1) :
    matmul dot_S5000x128_S128x1_S5000x1_1_0_0_1_n_n none a b (constant S5000x1 .f32 0x00000000#32) (ix2 p q)
      = ∑ k : Fin 128, a (ix2 p k) * b (ix2 k q) := by
  show FloatOps.matmul dot_S5000x128_S128x1_S5000x1_1_0_0_1_n_n none a b (constant S5000x1 .f32 0x00000000#32) (ix2 p q) = _
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun ax => Fin.ext (by
    match ax with
    | ⟨0, _⟩ => exact second_lhs_0 _ _
    | ⟨1, _⟩ => exact (second_lhs_1 _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun ax => Fin.ext (by
    match ax with
    | ⟨0, _⟩ => exact (second_rhs_0 _ _).trans hk
    | ⟨1, _⟩ => exact second_rhs_1 _ _)
  rw [el, er]

/-! ## The body's value at one edge of the block -/

/-- The score of edge `p` of a block, from the block's seven input arrays. -/
def blockScore (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (q : Fin 1) : EReal :=
  Ideal.logistic
    ((∑ j : Fin 128,
        max ((∑ k : Fin 128, x0 (ix2 p k) * x2 (ix2 k j) + ∑ k : Fin 128, x1 (ix2 p k) * x3 (ix2 k j)) + x4 (ix2 (0 : Fin 1) j)) 0
          * x5 (ix2 j q))
      + x6 (ix2 (0 : Fin 1) q))

theorem payload_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (q : Fin 1) :
    k0_pay1 x0 x1 x2 x3 x4 x5 x6 (ix2 p q) = blockScore x0 x1 x2 x3 x4 x5 x6 p q := by
  unfold k0_pay1
  simp only [shapeCast_self]
  show Ideal.logistic (_ + _) = _
  rw [second_apply, broadcastTo_1b_ab_apply]
  simp only [truncf_apply, maximumf_apply, addf_apply, first_apply, broadcastTo_1b_ab_apply, broadcast_apply,
    Scalar.ofBits, Ideal.ofBits_def, Ideal.ofBits_zero_f32]
  rfl

end Cert.EdgeScore.Kernel

end
-- ==== Proof.KernelReads.lean ====
/-
  Where each window's block sits, and what it reads.

  The region runs over 128 grid points; point `t` stages rows `5000 t … 5000 t + 4999` of the two gathered arrays and
  the whole of each parameter array, and its result block is rows `5000 t … 5000 t + 4999` of the 640000 × 1 result.
  So entry `(p, k)` of a gathered array's block at `t` is the array's entry `(5000 t + p, k)`, an entry of a parameter
  array's block is the same entry of the array, and entry `p` of the result block sits at row `5000 t + p`.
  `arrayScore` is the score formula over the arrays as the region finds them.
-/
import proofs.«421132_j72078141162164_1_alg».proof.Proof.Gen.KernelIdeal.Frame
import Idealize.ShloMosaic.Lib.ValueIdx

set_option Elab.async false

noncomputable section

namespace Cert.EdgeScore.Kernel

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem origin : (![0, 0] : Fin 2 → Nat) = fun _ => 0 := funext fun a => by fin_cases a <;> rfl

/-! ## The arrays the region finds, at their literal types -/

abbrev rows0 (c : Dev nD) : S640000x128.Idx → EReal := V m c main_v4
abbrev rows1 (c : Dev nD) : S640000x128.Idx → EReal := V m c main_v5
abbrev w1a (c : Dev nD) : S128x128.Idx → EReal := V m c main_v6
abbrev w1b (c : Dev nD) : S128x128.Idx → EReal := V m c main_v7
abbrev b1row (c : Dev nD) : S1x128.Idx → EReal := V m c main_v8
abbrev w2col (c : Dev nD) : S128x1.Idx → EReal := V m c main_arg4
abbrev b2cell (c : Dev nD) : S1x1.Idx → EReal := V m c main_v9

/-- The score of edge `r` from the arrays the region finds. -/
def edgeScore (c : Dev nD) (r : Fin 640000) (q : Fin 1) : EReal :=
  Ideal.logistic
    ((∑ j : Fin 128,
        max ((∑ k : Fin 128, rows0 m c (ix2 r k) * w1a m c (ix2 k j) + ∑ k : Fin 128, rows1 m c (ix2 r k) * w1b m c (ix2 k j))
            + b1row m c (ix2 (0 : Fin 1) j)) 0
          * w2col m c (ix2 j q))
      + b2cell m c (ix2 (0 : Fin 1) q))

/-- The result array the kernel leaves: every edge's score. -/
def arrayScore (c : Dev nD) : S640000x1.Idx → EReal := fun i => edgeScore m c (i 0) (i 1)

/-! ## Where each window's block sits -/

/-- The printed index maps over the grid, window by window: the two gathered arrays and the result move one block of
    rows per point; every parameter array is its one block. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem point_lt (t : Fin cfg0.N) : t.val < 128 := t.isLt

/-- Edge `p` of block `t`, as a row of the 640000. -/
def edge (t : Fin cfg0.N) (p : Fin 5000) : Fin 640000 :=
  ⟨t.val * 5000 + p.val, by have := point_lt t; have := p.isLt; omega⟩

theorem read0 (c : Dev nD) (t : Fin cfg0.N) (p : Fin 5000) (k : Fin 128) :
    (iblk m c 0 t : Vec Ideal S5000x128 .f32) (ix2 p k) = rows0 m c (ix2 (edge t p) k) := by
  show V m c main_v4 (((cfg0.win 0).blk t).view.emb (ix2 p k)) = V m c main_v4 (ix2 (edge t p) k)
  obtain ⟨e00, e01⟩ := idx0 t
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem read1 (c : Dev nD) (t : Fin cfg0.N) (p : Fin 5000) (k : Fin 128) :
    (iblk m c 1 t : Vec Ideal S5000x128 .f32) (ix2 p k) = rows1 m c (ix2 (edge t p) k) := by
  show V m c main_v5 (((cfg0.win 1).blk t).view.emb (ix2 p k)) = V m c main_v5 (ix2 (edge t p) k)
  obtain ⟨e10, e11⟩ := idx1 t
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem read2 (c : Dev nD) (t : Fin cfg0.N) (k j : Fin 128) :
    (iblk m c 2 t : Vec Ideal S128x128 .f32) (ix2 k j) = w1a m c (ix2 k j) := by
  show V m c main_v6 (((cfg0.win 2).blk t).view.emb (ix2 k j)) = V m c main_v6 (ix2 k j)
  obtain ⟨e20, e21⟩ := idx2 t
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

theorem read3 (c : Dev nD) (t : Fin cfg0.N) (k j : Fin 128) :
    (iblk m c 3 t : Vec Ideal S128x128 .f32) (ix2 k j) = w1b m c (ix2 k j) := by
  show V m c main_v7 (((cfg0.win 3).blk t).view.emb (ix2 k j)) = V m c main_v7 (ix2 k j)
  obtain ⟨e30, e31⟩ := idx3 t
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem read4 (c : Dev nD) (t : Fin cfg0.N) (z : Fin 1) (j : Fin 128) :
    (iblk m c 4 t : Vec Ideal S1x128 .f32) (ix2 z j) = b1row m c (ix2 z j) := by
  show V m c main_v8 (((cfg0.win 4).blk t).view.emb (ix2 z j)) = V m c main_v8 (ix2 z j)
  obtain ⟨e40, e41⟩ := idx4 t
  refine congrArg _ (funext fun a => Fin.ext ?_)
  match a with
  | ⟨0, _⟩ => show win0_4.index t (0 : Fin 2) * 1 + 1 * z.val = z.val; omega
  | ⟨1, _⟩ => show win0_4.index t (1 : Fin 2) * 128 + 1 * j.val = j.val; omega

theorem read5 (c : Dev nD) (t : Fin cfg0.N) (j : Fin 128) (q : Fin 1) :
    (iblk m c 5 t : Vec Ideal S128x1 .f32) (ix2 j q) = w2col m c (ix2 j q) := by
  show V m c main_arg4 (((cfg0.win 5).blk t).view.emb (ix2 j q)) = V m c main_arg4 (ix2 j q)
  obtain ⟨e50, e51⟩ := idx5 t
  refine congrArg _ (funext fun a => Fin.ext ?_)
  match a with
  | ⟨0, _⟩ => show win0_5.index t (0 : Fin 2) * 128 + 1 * j.val = j.val; omega
  | ⟨1, _⟩ => show win0_5.index t (1 : Fin 2) * 1 + 1 * q.val = q.val; omega

theorem read6 (c : Dev nD) (t : Fin cfg0.N) (z q : Fin 1) :
    (iblk m c 6 t : Vec Ideal S1x1 .f32) (ix2 z q) = b2cell m c (ix2 z q) := by
  show V m c main_v9 (((cfg0.win 6).blk t).view.emb (ix2 z q)) = V m c main_v9 (ix2 z q)
  obtain ⟨e60, e61⟩ := idx6 t
  refine congrArg _ (funext fun a => Fin.ext ?_)
  match a with
  | ⟨0, _⟩ => show win0_6.index t (0 : Fin 2) * 1 + 1 * z.val = z.val; omega
  | ⟨1, _⟩ => show win0_6.index t (1 : Fin 2) * 1 + 1 * q.val = q.val; omega

/-- Where edge `p` of block `t` of the result sits in the result array. -/
theorem emb7 (t : Fin cfg0.N) (p : Fin 5000) (q : Fin 1) :
    (((cfg0.win 7).blk t).view.emb (ix2 p q) : S640000x1.Idx) = ix2 (edge t p) q := by
  obtain ⟨e70, e71⟩ := idx7 t
  refine funext fun a => Fin.ext ?_
  match a with
  | ⟨0, _⟩ => show win0_7.index t (0 : Fin 2) * 5000 + 1 * p.val = t.val * 5000 + p.val; omega
  | ⟨1, _⟩ => show win0_7.index t (1 : Fin 2) * 1 + 1 * q.val = q.val; omega

end Cert.EdgeScore.Kernel

end
-- ==== Proof.KernelBlocks.lean ====
/-
  From the blocks to the whole array.

  Point `t` of the region's 128 grid points writes back rows `5000 t … 5000 t + 4999` of the 640000 × 1 result: edge
  `5000 t + p` of the result is the body's value at edge `p` of block `t`, whose inputs are rows `5000 t + p` of the
  gathered arrays and the parameter arrays unchanged (`KernelReads`), so what point `t` writes back is block `t` of
  `arrayScore`. The 128 blocks tile the 640000 rows (row `r` lies in block `r / 5000`), so the whole result array after
  the run is `arrayScore`.
-/
import proofs.«421132_j72078141162164_1_alg».proof.Proof.Gen.KernelIdeal.Value
import proofs.«421132_j72078141162164_1_alg».proof.Proof.KernelPayload
import proofs.«421132_j72078141162164_1_alg».proof.Proof.KernelReads

noncomputable section

namespace Cert.EdgeScore.Kernel

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## What each point writes back -/

/-- Point `t` writes back block `t` of `arrayScore`. -/
theorem flushed_eq (c : Dev nD) (t : Fin cfg0.N) :
    (dats m 0 c).flushed 7 t = ((cfg0.win 7).blk t).view.read (Elt Ideal) (arrayScore m c) := by
  rw [Cert.KernelIdeal.Value.flushed7]
  unfold out0_7
  rw [View.canon_unit_zero origin]
  simp only [View.ld_unit_zero (S := S5000x128) origin, View.ld_unit_zero (S := S128x128) origin,
    View.ld_unit_zero (S := S1x128) origin, View.ld_unit_zero (S := S128x1) origin, View.ld_unit_zero (S := S1x1) origin]
  have key : ∀ (p : Fin 5000) (q : Fin 1),
      k0_pay1 (iblk m c 0 t) (iblk m c 1 t) (iblk m c 2 t) (iblk m c 3 t) (iblk m c 4 t) (iblk m c 5 t) (iblk m c 6 t) (ix2 p q)
        = arrayScore m c (ix2 (edge t p) q) := fun p q => by
    refine (payload_apply (iblk m c 0 t) (iblk m c 1 t) (iblk m c 2 t) (iblk m c 3 t) (iblk m c 4 t) (iblk m c 5 t) (iblk m c 6 t) p q).trans ?_
    unfold blockScore
    simp only [read0, read1, read2, read3, read4, read5, read6]
    rfl
  generalize k0_pay1 (iblk m c 0 t) (iblk m c 1 t) (iblk m c 2 t) (iblk m c 3 t) (iblk m c 4 t) (iblk m c 5 t) (iblk m c 6 t) = P at key ⊢
  generalize arrayScore m c = G at key ⊢
  funext y
  obtain ⟨p, q, rfl⟩ : ∃ (p : Fin 5000) (q : Fin 1), y = ix2 p q := ⟨y 0, y 1, eq_ix2 y⟩
  show P (ix2 p q) = G (((cfg0.win 7).blk t).view.emb (ix2 p q))
  rw [emb7, key]

/-! ## The blocks tile the array -/

theorem mem_blk7 (t : Fin cfg0.N) (i : S640000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v10).slice (win0_7.rect t)).set ↔ _
  rw [View.set_slice_whole, Rect.mem_set_unit]
  exact Iff.rfl

/-- Row `r` of the result lies in the block of point `r / 5000`. -/
theorem cover7 (i : S640000x1.Idx) :
    ∃ t : Fin cfg0.N, (cfg0.win 7).flush t = true ∧ i ∈ ((cfg0.win 7).blk t).view.set := by
  have hi0 : (i 0).val < 640000 := (i 0).isLt
  have hi1 : (i 1).val < 1 := (i 1).isLt
  have ht : (i 0).val / 5000 < 128 := by omega
  refine ⟨⟨(i 0).val / 5000, ht⟩, flush0_7 _, ?_⟩
  rw [mem_blk7]
  obtain ⟨e70, e71⟩ := idx7 ⟨(i 0).val / 5000, ht⟩
  have e70' : win0_7.index ⟨(i 0).val / 5000, ht⟩ (0 : Fin 2) = (i 0).val / 5000 := e70
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    omega
  | ⟨1, _⟩ =>
    show win0_7.index ⟨(i 0).val / 5000, ht⟩ (1 : Fin 2) * 1 ≤ (i 1).val ∧ (i 1).val < win0_7.index ⟨(i 0).val / 5000, ht⟩ (1 : Fin 2) * 1 + 1
    omega

/-! ## The array after the run -/

theorem final7 (c : Dev nD) : (dats m 0 c).arrAt 7 cfg0.N = arrayScore m c :=
  (dats m 0 c).arrAt_eq_of_cover 7 (arrayScore m c) (fun t _ => flushed_eq m c t) cover7

/-- The kernel's run: the result array ends at `arrayScore`, the arguments unchanged. -/
theorem run : θ_run defs (onTc (τ := τ) (main (F := Ideal))) ⟨m, fun _ => 0, ρ⟩ fun r => ∀ c : Dev nD,
      r.2.mem ((c : Thread nD τ).loc main_v10) = arrayScore m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (Cert.KernelIdeal.Value.run_blocks m ρ)

end Cert.EdgeScore.Kernel

end
-- ==== Proof.Spec.lean ====
/-
  The score of an edge, as ONE function of the arrays, over the extended reals.

  For edge `e` let `xr e` and `xc e` be the two 128-feature rows gathered for its endpoints. The first layer applies the
  256 × 128 weight `w1` to the two rows laid side by side: feature `k` of the first row meets row `k` of `w1`, feature
  `k` of the second row meets row `128 + k`. So hidden unit `j` is

      h e j = max (∑ₖ xr e k · w1 (k, j) + ∑ₖ xc e k · w1 (128 + k, j) + b1 j) 0,

  and the score is the logistic function of `∑ⱼ h e j · w2 (j, 0) + b2 0`.

  Two small facts are kept beside it. A sum over the 256 rows of `w1` is the sum over its first 128 rows plus the sum
  over its last 128: this is the only rearrangement that separates "one product with the rows side by side" from "two
  products added", and it uses nothing but commutativity and associativity of addition, so it holds on the extended
  reals with no finiteness assumption. And the single-precision word `0x3F800000` denotes the number 1.
-/
import Idealize.ShloMosaic.PureOps.Ideal
import Idealize.ShloMosaic.Lib.ValueIdx
import Mathlib.Algebra.BigOperators.Fin

noncomputable section

namespace Cert.EdgeScore

open Idealize.ShloMosaic Idealize.ShloMosaic.ValueIdx

/-- Row `k` of the first-layer weight: the row that meets feature `k` of the first endpoint. -/
abbrev lo (k : Fin 128) : Fin 256 := ⟨k.val, by omega⟩
/-- Row `128 + k` of the first-layer weight: the row that meets feature `k` of the second endpoint. -/
abbrev hi (k : Fin 128) : Fin 256 := ⟨128 + k.val, by omega⟩

/-- Hidden unit `j` of edge `e`: the rectified first layer on the two gathered rows. -/
def hidden (xr xc : (⟨2, ![640000, 128]⟩ : Shape).Idx → EReal) (w1 : (⟨2, ![256, 128]⟩ : Shape).Idx → EReal)
    (b1 : (⟨1, ![128]⟩ : Shape).Idx → EReal) (e : Fin 640000) (j : Fin 128) : EReal :=
  max ((∑ k : Fin 128, xr (ix2 e k) * w1 (ix2 (lo k) j) + ∑ k : Fin 128, xc (ix2 e k) * w1 (ix2 (hi k) j)) + b1 (ix1 j)) 0

/-- The score of every edge: the logistic function of the second layer on the hidden units. -/
def score (xr xc : (⟨2, ![640000, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![640000, 1]⟩ : Shape).Idx → EReal :=
  fun i => Ideal.logistic ((∑ j : Fin 128, hidden xr xc w1 b1 (i 0) j * w2 (ix2 j (0 : Fin 1))) + b2 (ix1 (0 : Fin 1)))

/-- A sum over 256 terms is the sum of its first 128 plus the sum of its last 128. -/
theorem sum_halves {M : Type} [AddCommMonoid M] (f : Fin 256 → M) :
    ∑ k : Fin 256, f k = ∑ k : Fin 128, f (lo k) + ∑ k : Fin 128, f (hi k) :=
  Fin.sum_univ_add (a := 128) (b := 128) f

/-- The single-precision word of 1.0 denotes 1. -/
theorem one_f32 : Ideal.ofBits .f32 0x3F800000#32 = 1 := by
  simp [Ideal.ofBits, Ideal.ieee, -EReal.coe_mul]; norm_num

end Cert.EdgeScore

end
-- ==== Proof.KernelScore.lean ====
/-
  The kernel's result array is the score.

  `KernelBlocks.arrayScore` is the score formula over the arrays the region finds. Those arrays are functions of the
  program's arguments (`KernelArrays`): the two gathered arrays are the guarded gathers of the node table, which under
  the range assumption on the edge list are the plain gathers at the wrapped endpoint indices; the two 128 × 128 weight
  arrays are rows `k` and `128 + k` of the first-layer weight; the bias row and the 1 × 1 bias are the two bias vectors
  with a unit axis in front. Substituting, `arrayScore` is `Spec.score` of the two gathers and the four parameter arrays.
-/
import proofs.«421132_j72078141162164_1_alg».proof.Proof.KernelArrays
import proofs.«421132_j72078141162164_1_alg».proof.Proof.KernelBlocks
import proofs.«421132_j72078141162164_1_alg».proof.Proof.Spec
import Idealize.ShloMosaic.Lib.ValueLayout

noncomputable section

namespace Cert.EdgeScore.Kernel

open Cert.KernelIdeal Cert.KernelIdeal.Gen Cert.EdgeScore
open Idealize.ShloMosaic Idealize.ShloMosaic.ValueIdx Idealize.ShloMosaic.TcCoe Idealize.SL.Sem

variable (m : (ℓ : Loc nD τ sig) → Buf (Elt Ideal) ℓ)

/-- Row `k` of the first 128 rows of the weight is its row `k`. -/
theorem w1_first (w : S256x128.Idx → EReal) (k j : Fin 128) :
    extractStridedSlice S128x128 ![0, 0] w slices_S256x128_S128x128_0_0 (ix2 k j) = w (ix2 (lo k) j) :=
  extractStridedSlice_apply _ w _ (ix2 k j) (ix2 (lo k) j) (fun a => match a with
    | ⟨0, _⟩ => by show k.val = 0 + k.val; omega
    | ⟨1, _⟩ => by show j.val = 0 + j.val; omega)

/-- Row `k` of the last 128 rows of the weight is its row `128 + k`. -/
theorem w1_last (w : S256x128.Idx → EReal) (k j : Fin 128) :
    extractStridedSlice S128x128 ![128, 0] w slices_S256x128_S128x128_128_0 (ix2 k j) = w (ix2 (hi k) j) :=
  extractStridedSlice_apply _ w _ (ix2 k j) (ix2 (hi k) j) (fun a => match a with
    | ⟨0, _⟩ => by show 128 + k.val = 128 + k.val; rfl
    | ⟨1, _⟩ => by show j.val = 0 + j.val; omega)

/-- Under the range assumption on both rows of the edge list, the kernel's result array is the score of the two plain
    gathers and the parameter arrays. -/
theorem arrayScore_eq (c : Dev nD)
    (h0 : ∀ p, IntOp.cmpi .sge (endpoint0 (m ((c : Thread nD τ).loc main_arg1)) p) 4294867296#32 = 1#1
      ∧ IntOp.cmpi .slt (endpoint0 (m ((c : Thread nD τ).loc main_arg1)) p) 100000#32 = 1#1)
    (h1 : ∀ p, IntOp.cmpi .sge (endpoint1 (m ((c : Thread nD τ).loc main_arg1)) p) 4294867296#32 = 1#1
      ∧ IntOp.cmpi .slt (endpoint1 (m ((c : Thread nD τ).loc main_arg1)) p) 100000#32 = 1#1) :
    arrayScore m c
      = score (gatherRows (F := Ideal) (m ((c : Thread nD τ).loc main_arg0)) (endpoint0 (m ((c : Thread nD τ).loc main_arg1))))
          (gatherRows (F := Ideal) (m ((c : Thread nD τ).loc main_arg0)) (endpoint1 (m ((c : Thread nD τ).loc main_arg1))))
          (m ((c : Thread nD τ).loc main_arg2)) (m ((c : Thread nD τ).loc main_arg3))
          (m ((c : Thread nD τ).loc main_arg4)) (m ((c : Thread nD τ).loc main_arg5)) := by
  have e0 : rows0 m c = gatherRows (F := Ideal) (m ((c : Thread nD τ).loc main_arg0)) (endpoint0 (m ((c : Thread nD τ).loc main_arg1))) :=
    (V_rows0 m c).trans (takeRows_of_range (F := Ideal) _ _ h0)
  have e1 : rows1 m c = gatherRows (F := Ideal) (m ((c : Thread nD τ).loc main_arg0)) (endpoint1 (m ((c : Thread nD τ).loc main_arg1))) :=
    (V_rows1 m c).trans (takeRows_of_range (F := Ideal) _ _ h1)
  have e2 : ∀ k j : Fin 128, w1a m c (ix2 k j) = m ((c : Thread nD τ).loc main_arg2) (ix2 (lo k) j) := fun k j =>
    (congrFun (V_w1a m c) (ix2 k j)).trans (w1_first _ k j)
  have e3 : ∀ k j : Fin 128, w1b m c (ix2 k j) = m ((c : Thread nD τ).loc main_arg2) (ix2 (hi k) j) := fun k j =>
    (congrFun (V_w1b m c) (ix2 k j)).trans (w1_last _ k j)
  have e4 : ∀ j : Fin 128, b1row m c (ix2 (0 : Fin 1) j) = m ((c : Thread nD τ).loc main_arg3) (ix1 j) := fun j =>
    (congrFun (V_b1 m c) (ix2 (0 : Fin 1) j)).trans (shapeCast_a_1a_apply _ _ (0 : Fin 1) j)
  have e5 : w2col m c = m ((c : Thread nD τ).loc main_arg4) := V_main_arg4 m c
  have e6 : b2cell m c (ix2 (0 : Fin 1) (0 : Fin 1)) = m ((c : Thread nD τ).loc main_arg5) (ix1 (0 : Fin 1)) :=
    (congrFun (V_b2 m c) (ix2 (0 : Fin 1) (0 : Fin 1))).trans (shapeCast_a_1a_apply _ _ (0 : Fin 1) (0 : Fin 1))
  funext i
  obtain ⟨r, q, rfl⟩ : ∃ (r : Fin 640000) (q : Fin 1), i = ix2 r q := ⟨i 0, i 1, eq_ix2 i⟩
  obtain rfl : q = 0 := Subsingleton.elim q 0
  show edgeScore m c r 0 = Ideal.logistic _
  unfold edgeScore
  simp only [e0, e1, e2, e3, e4, e5, e6]
  rfl

end Cert.EdgeScore.Kernel

end
-- ==== Proof.RefValue.lean ====
/-
  The reference computes the score.

  Its program lays the two gathered row arrays side by side into one array of 256 features per edge and multiplies that
  by the whole first-layer weight. Read at an index, the side-by-side array is the first array on features `0 … 127`
  and the second on features `128 … 255`; so the product's sum over 256 features splits into the sum over the first
  array's features against the weight's first 128 rows plus the sum over the second array's features against its
  last 128 rows — the two sums of `Spec.hidden`. The bias is added, the maximum with 0 taken, the second layer is a
  sum over the 128 hidden units, and `1 / (1 + exp (-z))` is the logistic function by its definition.
-/
import proofs.«421132_j72078141162164_1_alg».proof.Proof.Gen.ReferenceIdeal.Read
import proofs.«421132_j72078141162164_1_alg».proof.Proof.Spec
import Idealize.ShloMosaic.Lib.Pipeline.Value

noncomputable section

namespace Cert.EdgeScore.Reference

open Cert.ReferenceIdeal Cert.ReferenceIdeal.Gen Cert.ReferenceIdeal.Read Cert.EdgeScore
open Idealize.ShloMosaic Idealize.ShloMosaic.ValueIdx

/-! ## The side-by-side array, read at an index -/

/-- On feature `k < 128` the side-by-side array is the first array. -/
theorem cat_lo (A B : S640000x128.Idx → EReal) (e : Fin 640000) (k : Fin 128) :
    concatenate S640000x256 1 [⟨S640000x128, A⟩, ⟨S640000x128, B⟩] concatenates_S640000x128_S640000x128_S640000x256_d1
      (ix2 e (lo k)) = A (ix2 e k) :=
  concatenate_pair_apply_left (1 : Fin S640000x256.rank) A B _ (ix2 e (lo k)) rfl (ix2 e k)
    (fun b => match b with | ⟨0, _⟩ => rfl | ⟨1, _⟩ => rfl)

/-- On feature `128 + k` it is the second array at feature `k`. -/
theorem cat_hi (A B : S640000x128.Idx → EReal) (e : Fin 640000) (k : Fin 128) :
    concatenate S640000x256 1 [⟨S640000x128, A⟩, ⟨S640000x128, B⟩] concatenates_S640000x128_S640000x128_S640000x256_d1
      (ix2 e (hi k)) = B (ix2 e k) :=
  concatenate_pair_apply_right (1 : Fin S640000x256.rank) A B _ (ix2 e (hi k)) rfl rfl (ix2 e k)
    (fun b => match b with | ⟨0, _⟩ => fun _ => rfl | ⟨1, _⟩ => fun h => absurd rfl h)
    (show k.val + 128 = 128 + k.val from Nat.add_comm _ _)

/-! ## The indices the generated read lemmas compose, as coordinates -/

theorem lidx19 (i : S640000x1.Idx) (j : Fin 128) (k : Fin 256) :
    lidx_main_v19 (lidx_main_v24 i j) k = ix2 (n0 := 640000) (n1 := 256) (i 0) k :=
  funext fun a => by match a with | ⟨0, _⟩ => rfl | ⟨1, _⟩ => rfl
theorem ridx19 (i : S640000x1.Idx) (j : Fin 128) (k : Fin 256) : ridx_main_v19 (lidx_main_v24 i j) k = ix2 k j :=
  funext fun a => by match a with | ⟨0, _⟩ => rfl | ⟨1, _⟩ => rfl
theorem idx20 (i : S640000x1.Idx) (j : Fin 128) : idx_main_v20 (idx_main_v21 (lidx_main_v24 i j)) = ix1 j :=
  funext fun a => by match a with | ⟨0, _⟩ => rfl
theorem ridx24 (i : S640000x1.Idx) (j : Fin 128) : ridx_main_v24 i j = ix2 j (0 : Fin 1) :=
  funext fun a => by
    match a with
    | ⟨0, _⟩ => rfl
    | ⟨1, _⟩ => exact Fin.ext (by show (i 1).val = 0; have h1 : (i 1).val < 1 := (i 1).isLt; omega)
theorem idx25 (i : S640000x1.Idx) : idx_main_v25 (idx_main_v26 i) = ix1 (0 : Fin 1) :=
  funext fun a => by match a with | ⟨0, _⟩ => rfl

/-! ## Hidden unit `j` of edge `i 0` -/

theorem hidden_eq (x0 : S100000x128.Idx → EReal) (x1 : S2x640000.Idx → BitVec 32) (x2 : S256x128.Idx → EReal)
    (x3 : S128.Idx → EReal) (i : S640000x1.Idx) (j : Fin 128) :
    val_main_v23 (F := Ideal) x0 x1 x2 x3 (lidx_main_v24 i j)
      = hidden (val_main_v10 (F := Ideal) x0 x1) (val_main_v17 (F := Ideal) x0 x1) x2 x3 (i 0) j := by
  rw [val_main_v23_apply, val_main_v22_apply, val_main_v19_apply, val_main_v21_apply, val_main_v20_apply,
    val_main_call0_v0_apply, val_main_call0_cst_apply, idx20, sum_halves]
  simp only [lidx19, ridx19]
  unfold val_main_v18
  simp only [Ideal.maximumf_def, Ideal.addf_def, Ideal.ofBits_def, Ideal.ofBits_zero_f32]
  unfold hidden
  refine congrArg (fun t => max (t + x3 (ix1 j)) 0) ?_
  refine congrArg₂ (· + ·) (Finset.sum_congr rfl fun k _ => ?_) (Finset.sum_congr rfl fun k _ => ?_)
  · exact congrArg (· * x2 (ix2 (lo k) j)) (cat_lo _ _ (i 0) k)
  · exact congrArg (· * x2 (ix2 (hi k) j)) (cat_hi _ _ (i 0) k)

/-! ## The result -/

/-- The reference's result array is the score of its two gathered row arrays and the parameter arrays. -/
theorem result_eq (x0 : S100000x128.Idx → EReal) (x1 : S2x640000.Idx → BitVec 32) (x2 : S256x128.Idx → EReal)
    (x3 : S128.Idx → EReal) (x4 : S128x1.Idx → EReal) (x5 : S1.Idx → EReal) :
    val_main_v33 (F := Ideal) x0 x1 x2 x3 x4 x5
      = score (val_main_v10 (F := Ideal) x0 x1) (val_main_v17 (F := Ideal) x0 x1) x2 x3 x4 x5 := by
  funext i
  rw [val_main_v33_apply, val_main_v32_apply, val_main_cst_3_apply, val_main_v31_apply, val_main_v30_apply,
    val_main_cst_apply, val_main_v29_apply, val_main_v28_apply, val_main_v27_apply, val_main_v24_apply,
    val_main_v26_apply, val_main_v25_apply, idx25]
  simp only [hidden_eq, ridx24, Ideal.hostDivf_def, Ideal.addf_def, Ideal.hostUnary_exp_def, Ideal.hostNegf_def,
    Ideal.negf_def, Ideal.ofBits_def, one_f32]
  rfl

end Cert.EdgeScore.Reference

end
-- ==== Proof.Agreement.lean ====
/-
  The two programs gather the same rows.

  Both programs take row 0 (and row 1) of the edge list, wrap a negative index by adding 100000, and gather the node
  table's rows at the wrapped indices. The reference's two gathered arrays, as its stages spell them, and the kernel's
  plain gathers `gatherRows … (endpoint0 …)`, `gatherRows … (endpoint1 …)` are the same terms: the same slice, reshape,
  compare, add, choice and broadcast applied to the same edge list, and the same gather of the same table.
-/
import proofs.«421132_j72078141162164_1_alg».proof.Proof.KernelArrays
import proofs.«421132_j72078141162164_1_alg».proof.Proof.Gen.ReferenceIdeal.Read

noncomputable section

namespace Cert.EdgeScore

open Idealize.ShloMosaic

theorem gathered0_eq (x0 : Cert.ReferenceIdeal.S100000x128.Idx → EReal) (x1 : Cert.ReferenceIdeal.S2x640000.Idx → BitVec 32) :
    Cert.ReferenceIdeal.Read.val_main_v10 (F := Ideal) x0 x1 = Kernel.gatherRows (F := Ideal) x0 (Kernel.endpoint0 x1) := by
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v1 Cert.ReferenceIdeal.Read.val_main_v0
    Cert.ReferenceIdeal.Read.val_main_c Cert.ReferenceIdeal.Read.val_main_c_0
    Kernel.gatherRows Kernel.wrapIdx Kernel.endpoint0
  rfl

theorem gathered1_eq (x0 : Cert.ReferenceIdeal.S100000x128.Idx → EReal) (x1 : Cert.ReferenceIdeal.S2x640000.Idx → BitVec 32) :
    Cert.ReferenceIdeal.Read.val_main_v17 (F := Ideal) x0 x1 = Kernel.gatherRows (F := Ideal) x0 (Kernel.endpoint1 x1) := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v3 Cert.ReferenceIdeal.Read.val_main_v2
    Cert.ReferenceIdeal.Read.val_main_c_1 Cert.ReferenceIdeal.Read.val_main_c_2
    Kernel.gatherRows Kernel.wrapIdx Kernel.endpoint1
  rfl

end Cert.EdgeScore

end
-- ==== Proof.lean ====
/-
  Edge scores of a graph: a fused two-layer perceptron on gathered node features, against its plain reference.

  For each of 640000 edges both programs gather the 128 features of the edge's two endpoints from a 100000 × 128 node
  table, apply a 256 → 128 layer with bias and rectification, a 128 → 1 layer with bias, and the logistic function.
  The reference lays the two gathered rows side by side and multiplies by the whole 256 × 128 weight; the kernel
  multiplies the first row by the weight's first 128 rows, the second by its last 128 rows, and adds. Over the extended
  reals these agree: a sum over 256 terms is the sum of its two halves (commutativity and associativity of addition
  only, so no finiteness is used), a change of float format is the identity, a matrix product into a zero accumulator
  is the plain sum, and `1 / (1 + exp (-z))` is the logistic function by definition.

  The two programs treat an endpoint index outside the table differently (the reference clamps it into the table, the
  kernel's gather is guarded and substitutes a fill row), so the claim is stated for edge lists whose entries lie in
  `[-100000, 100000)`: the indices at which indexing the table is meaningful, a negative index counting from the end.
  There the guard always passes and both programs gather the same rows (`Agreement`).

  The three frames are the generated ones (the reference's is its generated run with the result dropped); the ideal
  pass rewrote nothing, so `preserves` is `True`; `algebraic` sets the kernel's run, whose result array is
  `Spec.score` of the gathers and the parameters (`KernelBlocks.run`, `KernelScore.arrayScore_eq`), beside the
  reference's run, whose result is the same `Spec.score` (`RefValue.result_eq`).
-/
import proofs.«421132_j72078141162164_1_alg».proof.Defs
import proofs.«421132_j72078141162164_1_alg».proof.Proof.Gen.Kernel
import proofs.«421132_j72078141162164_1_alg».proof.Proof.Gen.Kernel.Skeleton
import proofs.«421132_j72078141162164_1_alg».proof.Proof.Gen.Kernel.Launch
import proofs.«421132_j72078141162164_1_alg».proof.Proof.Gen.Kernel.Points
import proofs.«421132_j72078141162164_1_alg».proof.Proof.Gen.Kernel.Frame
import proofs.«421132_j72078141162164_1_alg».proof.Proof.Gen.KernelIdeal
import proofs.«421132_j72078141162164_1_alg».proof.Proof.Gen.KernelIdeal.Skeleton
import proofs.«421132_j72078141162164_1_alg».proof.Proof.Gen.KernelIdeal.Launch
import proofs.«421132_j72078141162164_1_alg».proof.Proof.Gen.KernelIdeal.Points
import proofs.«421132_j72078141162164_1_alg».proof.Proof.Gen.KernelIdeal.Frame
import proofs.«421132_j72078141162164_1_alg».proof.Proof.Gen.ReferenceIdeal
import proofs.«421132_j72078141162164_1_alg».proof.Proof.Gen.Pre_finite_inputs
import proofs.«421132_j72078141162164_1_alg».proof.Proof.Gen.KernelIdeal.Value
import proofs.«421132_j72078141162164_1_alg».proof.Proof.Gen.ReferenceIdeal.Run
import proofs.«421132_j72078141162164_1_alg».proof.Proof.Gen.ReferenceIdeal.Read
import proofs.«421132_j72078141162164_1_alg».proof.Proof.IndexRange
import proofs.«421132_j72078141162164_1_alg».proof.Proof.KernelScore
import proofs.«421132_j72078141162164_1_alg».proof.Proof.RefValue
import proofs.«421132_j72078141162164_1_alg».proof.Proof.Agreement
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Under the precondition both rows of the edge list lie in `[-100000, 100000)`, so the kernel's result array is the
    score of the plain gathers; the reference's result is the score of the same gathers of the same arguments. -/
theorem algebraic : Cert.algebraic_KernelIdeal_ReferenceIdeal := by
  intro m ρ m' ρ' hpre hagree
  refine ⟨fun c => Cert.EdgeScore.Kernel.arrayScore m c, Cert.EdgeScore.Kernel.run m ρ, ?_⟩
  refine (θ_run Cert.ReferenceIdeal.defs _ _).mono (fun _ h c => ⟨(h c).1.trans ?_, (h c).2⟩)
    (Cert.ReferenceIdeal.Value.run (F := Ideal) m' ρ')
  have hrange := Cert.EdgeScore.range_of_pre _ _ _ _ _ _ (hpre c)
  rw [Cert.ReferenceIdeal.Read.val_main_v33_eq, Cert.EdgeScore.Reference.result_eq, Cert.EdgeScore.gathered0_eq,
    Cert.EdgeScore.gathered1_eq, (hagree c).1, (hagree c).2.1, (hagree c).2.2.1, (hagree c).2.2.2.1,
    (hagree c).2.2.2.2.1, (hagree c).2.2.2.2.2]
  exact (Cert.EdgeScore.Kernel.arrayScore_eq m c (fun p => hrange _) (fun p => hrange _)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
